-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S128x256 .f32) (main_arg3 : FVec F S128 .f32) (main_arg4 : FVec F S64x128 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S256x128 : Shape := ⟨2, ![256, 128]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S5000x1 : Shape := ⟨2, ![5000, 1]⟩
abbrev S1x128 : Shape := ⟨2, ![1, 128]⟩
abbrev S128x64 : Shape := ⟨2, ![128, 64]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 88
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S256x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S128x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S5000x64, .f32⟩
  | .local _ .vmem, ⟨21, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![340], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![340], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S1700000x128.size a
  hwx1_0 : ∀ i : grid1.Coords, EltTy.bits .f32 = 32 ∨ (Rect.block (s := S1700000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1700000x1.size a
  hwx1_1 : ∀ i : grid1.Coords, EltTy.bits .f32 = 32 ∨ (Rect.block (s := S1700000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S1700000x128.size a
  hwx1_2 : ∀ i : grid1.Coords, EltTy.bits .f32 = 32 ∨ (Rect.block (s := S1700000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S1700000x64.size a
  hwx3_0 : ∀ i : grid3.Coords, EltTy.bits .f32 = 32 ∨ (Rect.block (s := S1700000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S1700000x1.size a
  hwx3_1 : ∀ i : grid3.Coords, EltTy.bits .f32 = 32 ∨ (Rect.block (s := S1700000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S1700000x64.size a
  hwx3_2 : ∀ i : grid3.Coords, EltTy.bits .f32 = 32 ∨ (Rect.block (s := S1700000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S256x128 : Shape := ⟨2, ![256, 128]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x64 : Shape := ⟨2, ![128, 64]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S256x128, .f32⟩
  | .hbm, ⟨14, _⟩ => ⟨S100000x128, .f32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S128x64, .f32⟩
  | .hbm, ⟨71, _⟩ => ⟨S100000x64, .f32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x64, .f32⟩
  | .hbm, ⟨114, _⟩ => ⟨S1700000x1, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S1x64, .f32⟩
  | .hbm, ⟨122, _⟩ => ⟨S100000x64, .f32⟩
  | .hbm, ⟨123, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S128x256_S256x128_1_0 : S128x256.Transposes [1, 0] S256x128
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Linear1.lean ====
/-
  The first layer's linear map. Region 0 of the kernel's program multiplies the [100000, 256] features by the
  transposed [256, 128] weights, 5000 rows at a time: at block t the body rounds both operands to bf16 (the identity on
  extended reals), and stores their matrix product into a zero accumulator. So entry (r, f) of block t is the sum over
  k of x[5000 t + r, k] · w[k, f], and since the 20 blocks tile the result it is the one function
  product x w (r, f) = Σ_k x (r, k) · w (k, f) of the two arrays as the region finds them.
-/
import proofs.«142977_j9491877724922_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Linear1

open Cert.KernelIdeal Cert.KernelIdeal.Gen

variable (V : (c : Dev nD) → (b : Ref sig .tc) → Buf (Elt Ideal) ((c : Thread nD τ).loc b))

/-- The features as region 0 finds them. -/
abbrev feats (c : Dev nD) : S100000x256.Idx → Elt Ideal .f32 := V c main_arg0
/-- The transposed weights as region 0 finds them. -/
abbrev weightT (c : Dev nD) : S256x128.Idx → Elt Ideal .f32 := V c main_v31

/-- The left factor of term k of entry (r, f): (r, k). -/
abbrev lhsAt (i : S100000x128.Idx) (k : Fin 256) : S100000x256.Idx := fun a => match a with
  | ⟨0, _⟩ => ⟨(i 0).val, (i 0).isLt⟩
  | ⟨1, _⟩ => ⟨k.val, k.isLt⟩
/-- The right factor of term k of entry (r, f): (k, f). -/
abbrev rhsAt (i : S100000x128.Idx) (k : Fin 256) : S256x128.Idx := fun a => match a with
  | ⟨0, _⟩ => ⟨k.val, k.isLt⟩
  | ⟨1, _⟩ => ⟨(i 1).val, (i 1).isLt⟩

/-- The matrix product, entry by entry: (r, f) ↦ Σ_k x (r, k) · w (k, f). -/
def product (x : S100000x256.Idx → Elt Ideal .f32) (w : S256x128.Idx → Elt Ideal .f32) : S100000x128.Idx → Elt Ideal .f32 :=
  fun i => ∑ k : Fin 256, x (lhsAt i k) * w (rhsAt i k)

/-- The same two factors inside a block of 5000 rows. -/
abbrev lhsIn (j : S5000x128.Idx) (k : Fin 256) : S5000x256.Idx := fun a => match a with
  | ⟨0, _⟩ => ⟨(j 0).val, (j 0).isLt⟩
  | ⟨1, _⟩ => ⟨k.val, k.isLt⟩
abbrev rhsIn (j : S5000x128.Idx) (k : Fin 256) : S256x128.Idx := fun a => match a with
  | ⟨0, _⟩ => ⟨k.val, k.isLt⟩
  | ⟨1, _⟩ => ⟨(j 1).val, (j 1).isLt⟩

theorem hz : (![0, 0] : Fin 2 → Nat) = fun _ => 0 := funext fun a => by fin_cases a <;> rfl

/-! The body's contraction has one contracted axis: the left operand is read at (row, k), the right at (k, column). -/

theorem lhs_axis0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_axis1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_axis0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_axis1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What the body stores, as one function of the block index: the row of the left block against the column of the right. -/
theorem stored_fun (x0 : Vec Ideal S5000x256 .f32) (x1 : Vec Ideal S256x128 .f32) :
    k0_pay1 x0 x1 = fun j => ∑ k : Fin 256, x0 (lhsIn j k) * x1 (rhsIn j k) := by
  funext j
  unfold k0_pay1
  simp only [shapeCast_self, matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lhsIn j k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx j ((ValueIdx.contrEquiv1 dot_S5000x256_S256x128_S5000x128_1_0_0_1_n_n 256 rfl rfl).symm k) = rhsIn j k := funext fun a => Fin.ext (by
    match a with
    | ⟨0, _⟩ => exact (rhs_axis0 _ _).trans hk
    | ⟨1, _⟩ => exact rhs_axis1 _ _)
  rw [el, er]
  rfl

/-- The block indices at point t: block t of the features, the whole weights, block t of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them. -/
theorem flushed_eq (c : Dev nD) (t : Fin cfg0.N) :
    (dat0 V c).flushed 2 t = ((cfg0.win 2).blk t).view.read (Elt Ideal) (product (feats V c) (weightT V c)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  rw [stored_fun]
  obtain ⟨e0, e1, e2, e3, e4, e5⟩ := idx_facts t
  funext j
  show ∑ k : Fin 256, feats V c (((cfg0.win 0).blk t).view.emb (lhsIn j k)) * weightT V c (((cfg0.win 1).blk t).view.emb (rhsIn j k))
    = ∑ k : Fin 256, feats V c (lhsAt (((cfg0.win 2).blk t).view.emb j) k) * weightT V c (rhsAt (((cfg0.win 2).blk t).view.emb j) k)
  refine Finset.sum_congr rfl fun k _ => ?_
  have h0 : ((cfg0.win 0).blk t).view.emb (lhsIn j k) = lhsAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (rhsIn j k) = rhsAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r lies in block r / 5000: the 20 blocks tile the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 5000 < cfg0.N := by show _ < grid0.N; rw [N_0]; omega
  refine ⟨⟨(i 0).val / 5000, hN⟩, flush0_2 _, ?_⟩
  obtain ⟨-, -, -, -, e4, e5⟩ := idx_facts ⟨(i 0).val / 5000, hN⟩
  rw [mem_blk]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- The array region 0 leaves: the features times the transposed weights. -/
theorem final (c : Dev nD) : (dat0 V c).arrAt 2 cfg0.N = product (feats V c) (weightT V c) :=
  (dat0 V c).arrAt_eq_of_cover 2 (product (feats V c) (weightT V c)) (fun t _ => flushed_eq V c t) covered

end Cert.KernelIdeal.Linear1

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Messages1.lean ====
/-
  The first layer's edge messages. Region 1 of the kernel's program multiplies every gathered row by its edge's
  coefficient: the [1700000, 128] array of gathered rows and the [1700000, 1] column of coefficients are cut into
  340 blocks of 5000 rows, and at block t the body stores h · broadcast(n), the column laid across the 128 lanes.
  So entry (e, f) of block t is h[5000 t + e, f] · n[5000 t + e, 0], and since the 340 blocks tile the array
  the whole result is the one function scaled h n (e, f) = h (e, f) · n (e, 0) of the two arrays as the region finds them.
-/
import proofs.«142977_j9491877724922_1_alg».proof.Proof.Gen.KernelIdeal.Frame
import proofs.«142977_j9491877724922_1_alg».proof.Proof.LibColumn
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Messages1

open Cert.KernelIdeal Cert.KernelIdeal.Gen

variable (V : (c : Dev nD) → (b : Ref sig .tc) → Buf (Elt Ideal) ((c : Thread nD τ).loc b))

/-- The coefficient column's entry that scales row e: (e, 0). -/
abbrev coeffOf (i : S1700000x128.Idx) : S1700000x1.Idx := fun a => match a with
  | ⟨0, _⟩ => ⟨(i 0).val, (i 0).isLt⟩
  | ⟨1, _⟩ => ⟨0, Nat.one_pos⟩

/-- Every row of h scaled by its coefficient: (e, f) ↦ h (e, f) · n (e, 0). -/
def scaled (h : S1700000x128.Idx → Elt Ideal .f32) (n : S1700000x1.Idx → Elt Ideal .f32) : S1700000x128.Idx → Elt Ideal .f32 :=
  fun i => h i * n (coeffOf i)

/-- The gathered rows as region 1 finds them. -/
abbrev rows (c : Dev nD) : S1700000x128.Idx → Elt Ideal .f32 := V c main_v39
/-- The coefficient column as region 1 finds it. -/
abbrev coeffs (c : Dev nD) : S1700000x1.Idx → Elt Ideal .f32 := V c main_v30

theorem hz : (![0, 0] : Fin 2 → Nat) = fun _ => 0 := funext fun a => by fin_cases a <;> rfl

/-- Inside a block, the column entry that scales row p: (p, 0). -/
abbrev colIn (j : S5000x128.Idx) : S5000x1.Idx := fun a => match a with
  | ⟨0, _⟩ => ⟨(j 0).val, (j 0).isLt⟩
  | ⟨1, _⟩ => ⟨0, Nat.one_pos⟩

theorem colIn_ix2 (p : Fin 5000) (q : Fin 128) : colIn (ix2 p q) = ix2 p (0 : Fin 1) :=
  funext fun a => match a with | ⟨0, _⟩ => rfl | ⟨1, _⟩ => rfl

/-- What the body stores, entry by entry: the row block times the column block laid across the lanes. -/
theorem stored_apply (x0 : Vec Ideal S5000x128 .f32) (x1 : Vec Ideal S5000x1 .f32) (p : Fin 5000) (q : Fin 128) :
    k1_pay1 x0 x1 (ix2 p q) = x0 (ix2 p q) * x1 (ix2 p (0 : Fin 1)) := by
  unfold k1_pay1
  rw [mulf_apply, shapeCast_self, shapeCast_self]
  exact congrArg (x0 (ix2 p q) * ·) (Cert.LibColumn.broadcastTo_a1_ab_apply x1 broadcasts_S5000x1_S5000x128 p q)

/-- The same as one function of the block index. -/
theorem stored_fun (x0 : Vec Ideal S5000x128 .f32) (x1 : Vec Ideal S5000x1 .f32) :
    k1_pay1 x0 x1 = fun j => x0 j * x1 (colIn j) := by
  funext j
  obtain ⟨p, q, rfl⟩ : ∃ (p : Fin 5000) (q : Fin 128), j = ix2 p q := ⟨j 0, j 1, eq_ix2 j⟩
  rw [colIn_ix2]
  exact stored_apply x0 x1 p q

/-- The block indices of the three windows at point t: block t of the rows, block t of the column, block t of the result. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of `scaled` of the two arrays as the region finds them. -/
theorem flushed_eq (c : Dev nD) (t : Fin cfg1.N) :
    (dat1 V c).flushed 2 t = ((cfg1.win 2).blk t).view.read (Elt Ideal) (scaled (rows V c) (coeffs V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S5000x1) hz]
  rw [stored_fun]
  obtain ⟨e0, e1, e2, e3, e4, e5⟩ := idx_facts t
  funext j
  show rows V c (((cfg1.win 0).blk t).view.emb j) * coeffs V c (((cfg1.win 1).blk t).view.emb (colIn j))
    = rows V c (((cfg1.win 2).blk t).view.emb j) * coeffs V c (coeffOf (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (colIn j) = coeffOf (((cfg1.win 2).blk t).view.emb j) := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 1 + 1 * 0 = 0; omega
  rw [h0, h1]

/-- An index of the array is in point t's block iff each coordinate is in the block's range on its axis. -/
theorem mem_blk (t : Fin cfg1.N) (i : S1700000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v40).slice (win1_2.rect t)).set ↔ _
  rw [View.set_slice_whole, Rect.mem_set_unit]
  exact Iff.rfl

/-- Row e lies in block e / 5000: the 340 blocks tile the array. -/
theorem covered (i : S1700000x128.Idx) :
    ∃ t : Fin cfg1.N, (cfg1.win 2).flush t = true ∧ i ∈ ((cfg1.win 2).blk t).view.set := by
  have hi0 : (i 0).val < 1700000 := (i 0).isLt
  have hi1 : (i 1).val < 128 := (i 1).isLt
  have hN : (i 0).val / 5000 < cfg1.N := by show _ < grid1.N; rw [N_1]; omega
  refine ⟨⟨(i 0).val / 5000, hN⟩, flush1_2 _, ?_⟩
  obtain ⟨-, -, -, -, e4, e5⟩ := idx_facts ⟨(i 0).val / 5000, hN⟩
  rw [mem_blk]
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 128 ≤ (i 1).val ∧ (i 1).val < win1_2.index _ (1 : Fin 2) * 128 + 128; rw [e5]; omega

/-- The array region 1 leaves: every gathered row scaled by its coefficient. -/
theorem final (c : Dev nD) : (dat1 V c).arrAt 2 cfg1.N = scaled (rows V c) (coeffs V c) :=
  (dat1 V c).arrAt_eq_of_cover 2 (scaled (rows V c) (coeffs V c)) (fun t _ => flushed_eq V c t) covered

end Cert.KernelIdeal.Messages1

end
-- ==== Proof.Bridge.lean ====
/-
  Where the kernel's four regions meet the reference's operations. The reference computes each layer's linear map
  with one dot_general over all 100000 rows and scales the gathered rows by multiplying with the coefficient vector
  broadcast first to a column and then across the lanes; the kernel's regions leave the matrix product
  (r, f) ↦ Σ_k x (r, k) · w (k, f) and the scaling (e, f) ↦ h (e, f) · n (e, 0) of a coefficient COLUMN, which the
  kernel's program made from the same vector by a reshape. At every entry the two sides are the same sum and the same
  product: a reshape to a column and a broadcast to a column both read the vector at the row. The reference computes
  the coefficient vector a second time for the second layer, by the same operations of the same edge list: one term.
-/
import proofs.«142977_j9491877724922_1_alg».proof.Proof.RefRead
import proofs.«142977_j9491877724922_1_alg».proof.Proof.Linear1
import proofs.«142977_j9491877724922_1_alg».proof.Proof.Linear2
import proofs.«142977_j9491877724922_1_alg».proof.Proof.Messages1
import proofs.«142977_j9491877724922_1_alg».proof.Proof.Messages2
import proofs.«142977_j9491877724922_1_alg».proof.Proof.LibColumn
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen Cert.ReferenceIdeal.ReadP

variable (x0 : (⟨S100000x256, .f32⟩ : BufTy).Contents (Elt Ideal)) (x1 : (⟨S2x1600000, .i32⟩ : BufTy).Contents (Elt Ideal))
  (x2 : (⟨S128x256, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))

/-- The coefficient column the kernel's program hands its scale regions: the reference's coefficient vector, reshaped. -/
abbrev coeffCol : (⟨S1700000x1, .f32⟩ : BufTy).Contents (Elt Ideal) :=
  shapeCast S1700000x1 (val_main_v31 (F := Ideal) x1) shapeCasts_S1700000_S1700000x1

/-- Layer 1: the product of the features with the transposed weights is the reference's dot_general. -/
theorem product1 : Linear1.product x0 (val_main_v7 (F := Ideal) x2) = val_main_v8 (F := Ideal) x0 x2 := by
  funext i
  rw [val_main_v8_apply]
  rfl

/-- Layer 2: the product of the hidden activations with the transposed weights is the reference's dot_general. -/
theorem product2 : Linear2.product (val_main_v48 (F := Ideal) x0 x1 x2 x3) (val_main_v49 (F := Ideal) x4) = val_main_v50 (F := Ideal) x0 x1 x2 x3 x4 := by
  funext i
  rw [val_main_v50_apply]
  rfl

/-- The reference's second computation of the coefficient vector is its first. -/
theorem coeff_twice : val_main_v73 (F := Ideal) x1 = val_main_v31 (F := Ideal) x1 := rfl

/-- The coefficient column at (e, 0) is the coefficient vector at e. -/
theorem coeffCol_apply (p : Fin 1700000) : coeffCol x1 (ix2 p (0 : Fin 1)) = val_main_v31 (F := Ideal) x1 (ix1 p) :=
  Cert.LibColumn.shapeCast_a_a1_apply _ shapeCasts_S1700000_S1700000x1 p 0

/-- Layer 1: scaling the gathered rows by the coefficient column is the reference's multiply by the broadcast vector. -/
theorem scaled1 : Messages1.scaled (val_main_v38 (F := Ideal) x0 x1 x2) (coeffCol x1) = val_main_v41 (F := Ideal) x0 x1 x2 := by
  funext i
  obtain ⟨p, q, rfl⟩ : ∃ (p : Fin 1700000) (q : Fin 128), i = ix2 p q := ⟨i 0, i 1, eq_ix2 i⟩
  rw [val_main_v41_apply, val_main_v40_apply, val_main_v39_apply]
  unfold Messages1.scaled
  refine congrArg (val_main_v38 (F := Ideal) x0 x1 x2 (ix2 p q) * ·) ?_
  exact (coeffCol_apply x1 p).trans (congrArg (val_main_v31 (F := Ideal) x1) (funext fun a => match a with | ⟨0, _⟩ => rfl))

/-- Layer 2: the same, the reference's second coefficient vector being its first. -/
theorem scaled2 : Messages2.scaled (val_main_v80 (F := Ideal) x0 x1 x2 x3 x4) (coeffCol x1) = val_main_v83 (F := Ideal) x0 x1 x2 x3 x4 := by
  funext i
  obtain ⟨p, q, rfl⟩ : ∃ (p : Fin 1700000) (q : Fin 64), i = ix2 p q := ⟨i 0, i 1, eq_ix2 i⟩
  rw [val_main_v83_apply, val_main_v82_apply, val_main_v81_apply, coeff_twice]
  unfold Messages2.scaled
  refine congrArg (val_main_v80 (F := Ideal) x0 x1 x2 x3 x4 (ix2 p q) * ·) ?_
  exact (coeffCol_apply x1 p).trans (congrArg (val_main_v31 (F := Ideal) x1) (funext fun a => match a with | ⟨0, _⟩ => rfl))

end Cert.KernelIdeal.Bridge

end
-- ==== Proof.Stages.lean ====
/-
  The kernel's program from the launch to its result, boundary by boundary. @main is thirteen segments: stretches
  of host operations and the four regions between them. At each boundary the buffers that a later segment reads
  hold the value the reference's corresponding operation computes, as a function of the six argument arrays:
  the source and target index vectors (the edge list with the self loops appended), the coefficient vector
  dinv[src] · dinv[tgt] as a column, then per layer the linear map (a region), the gathered rows, their scaling (a
  region), the scatter-add with the bias, and between the layers the relu. A host stretch is read operation by
  operation; a region's result array is the closed form of its module, met with the reference's operation in
  Bridge; a buffer no segment in between writes is carried unchanged.
-/
import proofs.«142977_j9491877724922_1_alg».proof.Proof.Gen.KernelIdeal.Frame
import proofs.«142977_j9491877724922_1_alg».proof.Proof.RefRead
import proofs.«142977_j9491877724922_1_alg».proof.Proof.Linear1
import proofs.«142977_j9491877724922_1_alg».proof.Proof.Linear2
import proofs.«142977_j9491877724922_1_alg».proof.Proof.Messages1
import proofs.«142977_j9491877724922_1_alg».proof.Proof.Messages2
import proofs.«142977_j9491877724922_1_alg».proof.Proof.Bridge
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen Cert.ReferenceIdeal.ReadP

/-- A buffer that no operation of a host stretch writes holds after the stretch what it held before. -/
macro "unwritten" : tactic => `(tactic| (
  refine StableHlo.after_of_forall_not_mem _ _ (List.forall_iff_forall_mem.mp ?_)
  simp only [hostOps0, hostOps0_1, hostOps0_2, hostOps1, hostOps2, hostOps2_1, hostOps2_2, hostOps3, hostOps4, List.Forall,
    StableHlo.nullary_writes, StableHlo.unary_writes, StableHlo.binary_writes, StableHlo.ternary_writes, StableHlo.quaternary_writes,
    StableHlo.reshape_writes, Finset.mem_singleton]
  repeat' apply And.intro
  all_goals exact StableHlo.devRef_ne_of_ne (by decide)))

/-! ## The host stretches, read at any float family

Each lemma reads one result of a host stretch, operation by operation, from what the stretch is entered with: the
launch memory for the first three stretches, and after a region the region's result array and the buffers carried
across it, taken as hypotheses. The right-hand sides are the reference's stages. -/

section HostOnly

variable {F : FTy → Type} [FloatOps F] (mF : (ℓ : Loc nD τ sig) → Buf (Elt F) ℓ) (ρ : Dev nD → PrngReg) (c : Dev nD)
variable (x0 : (⟨S100000x256, .f32⟩ : BufTy).Contents (Elt F)) (x1 : (⟨S2x1600000, .i32⟩ : BufTy).Contents (Elt F))
  (x2 : (⟨S128x256, .f32⟩ : BufTy).Contents (Elt F)) (x3 : (⟨S128, .f32⟩ : BufTy).Contents (Elt F))
  (x4 : (⟨S64x128, .f32⟩ : BufTy).Contents (Elt F)) (x5 : (⟨S64, .f32⟩ : BufTy).Contents (Elt F))

/-- The source indices: the edge list's first row, then every node once. -/
theorem src3F : W3 mF ρ c (Proc.devRef .tc main_v5) = val_main_v3 (F := F) (mF ((c : Thread nD τ).loc main_arg1)) := by
  dsimp only [W3, W2, W1]
  after_results_simp
  rfl

/-- The target indices: the edge list's second row, then every node once. -/
theorem dst3F : W3 mF ρ c (Proc.devRef .tc main_v6) = val_main_v6 (F := F) (mF ((c : Thread nD τ).loc main_arg1)) := by
  dsimp only [W3, W2, W1]
  after_results_simp
  rfl

/-- The coefficient of every edge, dinv[src] · dinv[tgt] with dinv the inverse square root of the in-degree, as a column. -/
theorem coeff3F : W3 mF ρ c (Proc.devRef .tc main_v30)
    = shapeCast S1700000x1 (val_main_v31 (F := F) (mF ((c : Thread nD τ).loc main_arg1))) shapeCasts_S1700000_S1700000x1 := by
  dsimp only [W3, W2, W1]
  after_results_simp
  rfl

/-- The first layer's weights, transposed. -/
theorem wT3F : W3 mF ρ c (Proc.devRef .tc main_v31) = val_main_v7 (F := F) (mF ((c : Thread nD τ).loc main_arg2)) := by
  dsimp only [W3, W2, W1]
  after_results_simp
  rfl

/-- No operation before the first region writes an argument. -/
theorem arg3F (r : Ref sig .tc) (h1 : W1 mF ρ c (Proc.devRef .tc r) = W0 mF ρ c (Proc.devRef .tc r))
    (h2 : W2 mF ρ c (Proc.devRef .tc r) = W1 mF ρ c (Proc.devRef .tc r))
    (h3 : W3 mF ρ c (Proc.devRef .tc r) = W2 mF ρ c (Proc.devRef .tc r)) :
    W3 mF ρ c (Proc.devRef .tc r) = W0 mF ρ c (Proc.devRef .tc r) := h3.trans (h2.trans h1)

/-- The first linear map's rows gathered at the source indices. -/
theorem gath5F (hlin : W4 mF ρ c (Proc.devRef .tc main_v32) = val_main_v8 (F := F) x0 x2)
    (hsrc : W4 mF ρ c (Proc.devRef .tc main_v5) = val_main_v3 (F := F) x1) :
    W5 mF ρ c (Proc.devRef .tc main_v39) = val_main_v38 (F := F) x0 x1 x2 := by
  dsimp only [W5]
  after_results_simp
  rw [hlin, hsrc]
  rfl

/-- The first layer's messages added up at their targets, plus the bias, and the relu: the hidden activations. -/
theorem hid9F (hmsg : W6 mF ρ c (Proc.devRef .tc main_v40) = val_main_v41 (F := F) x0 x1 x2)
    (hdst : W6 mF ρ c (Proc.devRef .tc main_v6) = val_main_v6 (F := F) x1)
    (hb : W6 mF ρ c (Proc.devRef .tc main_arg3) = x3) :
    W9 mF ρ c (Proc.devRef .tc main_v47) = val_main_v48 (F := F) x0 x1 x2 x3 := by
  dsimp only [W9, W8, W7]
  after_results_simp
  rw [hmsg, hdst, hb]
  rfl

/-- The second layer's weights, transposed. -/
theorem w2T9F (hw : W6 mF ρ c (Proc.devRef .tc main_arg4) = x4) :
    W9 mF ρ c (Proc.devRef .tc main_v48) = val_main_v49 (F := F) x4 := by
  dsimp only [W9, W8, W7]
  after_results_simp
  rw [hw]
  rfl

/-- The second linear map's rows gathered at the source indices. -/
theorem gath11F (hlin : W10 mF ρ c (Proc.devRef .tc main_v49) = val_main_v50 (F := F) x0 x1 x2 x3 x4)
    (hsrc : W10 mF ρ c (Proc.devRef .tc main_v5) = val_main_v3 (F := F) x1) :
    W11 mF ρ c (Proc.devRef .tc main_v56) = val_main_v80 (F := F) x0 x1 x2 x3 x4 := by
  dsimp only [W11]
  after_results_simp
  rw [hlin, hsrc]
  rfl

/-- The second layer's messages added up at their targets, plus the bias: the result. -/
theorem resultF (hmsg : W12 mF ρ c (Proc.devRef .tc main_v57) = val_main_v83 (F := F) x0 x1 x2 x3 x4)
    (hdst : W12 mF ρ c (Proc.devRef .tc main_v6) = val_main_v6 (F := F) x1)
    (hb : W12 mF ρ c (Proc.devRef .tc main_arg5) = x5) :
    W13 mF ρ c (Proc.devRef .tc main_v63) = val_main_v89 (F := F) x0 x1 x2 x3 x4 x5 := by
  dsimp only [W13]
  after_results_simp
  rw [hmsg, hdst, hb]
  rfl

/-- A buffer the three stretches between regions 1 and 2 do not write. -/
theorem keep9 (r : Ref sig .tc)
    (h7 : W7 mF ρ c (Proc.devRef .tc r) = W6 mF ρ c (Proc.devRef .tc r))
    (h8 : W8 mF ρ c (Proc.devRef .tc r) = W7 mF ρ c (Proc.devRef .tc r))
    (h9 : W9 mF ρ c (Proc.devRef .tc r) = W8 mF ρ c (Proc.devRef .tc r)) :
    W9 mF ρ c (Proc.devRef .tc r) = W6 mF ρ c (Proc.devRef .tc r) := h9.trans (h8.trans h7)

end HostOnly

/-! ## At the ideal instance: the regions' results plugged in -/

variable (m : (ℓ : Loc nD τ sig) → Buf (Elt Ideal) ℓ) (ρ : Dev nD → PrngReg) (c : Dev nD)

/-- The six argument arrays: node features, edge list, and the two layers' weights and biases. -/
abbrev aX : (⟨S100000x256, .f32⟩ : BufTy).Contents (Elt Ideal) := m ((c : Thread nD τ).loc main_arg0)
abbrev aE : (⟨S2x1600000, .i32⟩ : BufTy).Contents (Elt Ideal) := m ((c : Thread nD τ).loc main_arg1)
abbrev aW1 : (⟨S128x256, .f32⟩ : BufTy).Contents (Elt Ideal) := m ((c : Thread nD τ).loc main_arg2)
abbrev aB1 : (⟨S128, .f32⟩ : BufTy).Contents (Elt Ideal) := m ((c : Thread nD τ).loc main_arg3)
abbrev aW2 : (⟨S64x128, .f32⟩ : BufTy).Contents (Elt Ideal) := m ((c : Thread nD τ).loc main_arg4)
abbrev aB2 : (⟨S64, .f32⟩ : BufTy).Contents (Elt Ideal) := m ((c : Thread nD τ).loc main_arg5)

theorem src3 : W3 m ρ c (Proc.devRef .tc main_v5) = val_main_v3 (F := Ideal) (aE m c) := src3F m ρ c
theorem dst3 : W3 m ρ c (Proc.devRef .tc main_v6) = val_main_v6 (F := Ideal) (aE m c) := dst3F m ρ c
theorem coeff3 : W3 m ρ c (Proc.devRef .tc main_v30) = Bridge.coeffCol (aE m c) := coeff3F m ρ c
theorem wT3 : W3 m ρ c (Proc.devRef .tc main_v31) = val_main_v7 (F := Ideal) (aW1 m c) := wT3F m ρ c
theorem x3 : W3 m ρ c (Proc.devRef .tc main_arg0) = aX m c :=
  arg3F m ρ c main_arg0 (by unwritten) (by unwritten) (by unwritten)
theorem b1_3 : W3 m ρ c (Proc.devRef .tc main_arg3) = aB1 m c :=
  arg3F m ρ c main_arg3 (by unwritten) (by unwritten) (by unwritten)
theorem w2_3 : W3 m ρ c (Proc.devRef .tc main_arg4) = aW2 m c :=
  arg3F m ρ c main_arg4 (by unwritten) (by unwritten) (by unwritten)
theorem b2_3 : W3 m ρ c (Proc.devRef .tc main_arg5) = aB2 m c :=
  arg3F m ρ c main_arg5 (by unwritten) (by unwritten) (by unwritten)

/-! ### Layer 1 -/

/-- Region 0 leaves the first linear map of the features. -/
theorem lin4 : W4 m ρ c (Proc.devRef .tc main_v32) = val_main_v8 (F := Ideal) (aX m c) (aW1 m c) := by
  have h := W4_arr m ρ c 2
  rw [Linear1.final (V3 m ρ) c] at h
  refine h.trans ?_
  show Linear1.product (W3 m ρ c (Proc.devRef .tc main_arg0)) (W3 m ρ c (Proc.devRef .tc main_v31)) = _
  rw [x3, wT3]
  exact Bridge.product1 _ _

theorem src4 : W4 m ρ c (Proc.devRef .tc main_v5) = val_main_v3 (F := Ideal) (aE m c) :=
  (W4_of_ne m ρ c main_v5 (by decide)).trans (src3 m ρ c)

/-- Its rows gathered at the source indices. -/
theorem gath5 : W5 m ρ c (Proc.devRef .tc main_v39) = val_main_v38 (F := Ideal) (aX m c) (aE m c) (aW1 m c) :=
  gath5F m ρ c _ _ _ (lin4 m ρ c) (src4 m ρ c)

theorem coeff5 : W5 m ρ c (Proc.devRef .tc main_v30) = Bridge.coeffCol (aE m c) :=
  calc W5 m ρ c (Proc.devRef .tc main_v30)
    _ = W4 m ρ c (Proc.devRef .tc main_v30) := by unwritten
    _ = W3 m ρ c (Proc.devRef .tc main_v30) := W4_of_ne m ρ c main_v30 (by decide)
    _ = _ := coeff3 m ρ c

/-- Region 1 leaves the gathered rows scaled by their coefficients: the first layer's messages. -/
theorem msg6 : W6 m ρ c (Proc.devRef .tc main_v40) = val_main_v41 (F := Ideal) (aX m c) (aE m c) (aW1 m c) := by
  have h := W6_arr m ρ c 2
  rw [Messages1.final (V5 m ρ) c] at h
  refine h.trans ?_
  show Messages1.scaled (W5 m ρ c (Proc.devRef .tc main_v39)) (W5 m ρ c (Proc.devRef .tc main_v30)) = _
  rw [gath5, coeff5]
  exact Bridge.scaled1 _ _ _

theorem dst6 : W6 m ρ c (Proc.devRef .tc main_v6) = val_main_v6 (F := Ideal) (aE m c) :=
  calc W6 m ρ c (Proc.devRef .tc main_v6)
    _ = W5 m ρ c (Proc.devRef .tc main_v6) := W6_of_ne m ρ c main_v6 (by decide)
    _ = W4 m ρ c (Proc.devRef .tc main_v6) := by unwritten
    _ = W3 m ρ c (Proc.devRef .tc main_v6) := W4_of_ne m ρ c main_v6 (by decide)
    _ = _ := dst3 m ρ c

theorem src6 : W6 m ρ c (Proc.devRef .tc main_v5) = val_main_v3 (F := Ideal) (aE m c) :=
  calc W6 m ρ c (Proc.devRef .tc main_v5)
    _ = W5 m ρ c (Proc.devRef .tc main_v5) := W6_of_ne m ρ c main_v5 (by decide)
    _ = W4 m ρ c (Proc.devRef .tc main_v5) := by unwritten
    _ = _ := src4 m ρ c

/-- The coefficient column is one of region 1's input arrays: an input array leaves the region as it entered. -/
theorem coeff6 : W6 m ρ c (Proc.devRef .tc main_v30) = Bridge.coeffCol (aE m c) :=
  ((W6_arr m ρ c 1).trans (((dat1 (V5 m ρ) c).arrAt_in 1 rfl _).trans (A_eq1 (V5 m ρ) c 1))).trans (coeff5 m ρ c)

theorem b1_6 : W6 m ρ c (Proc.devRef .tc main_arg3) = aB1 m c :=
  calc W6 m ρ c (Proc.devRef .tc main_arg3)
    _ = W5 m ρ c (Proc.devRef .tc main_arg3) := W6_of_ne m ρ c main_arg3 (by decide)
    _ = W4 m ρ c (Proc.devRef .tc main_arg3) := by unwritten
    _ = W3 m ρ c (Proc.devRef .tc main_arg3) := W4_of_ne m ρ c main_arg3 (by decide)
    _ = _ := b1_3 m ρ c

theorem w2_6 : W6 m ρ c (Proc.devRef .tc main_arg4) = aW2 m c :=
  calc W6 m ρ c (Proc.devRef .tc main_arg4)
    _ = W5 m ρ c (Proc.devRef .tc main_arg4) := W6_of_ne m ρ c main_arg4 (by decide)
    _ = W4 m ρ c (Proc.devRef .tc main_arg4) := by unwritten
    _ = W3 m ρ c (Proc.devRef .tc main_arg4) := W4_of_ne m ρ c main_arg4 (by decide)
    _ = _ := w2_3 m ρ c

theorem b2_6 : W6 m ρ c (Proc.devRef .tc main_arg5) = aB2 m c :=
  calc W6 m ρ c (Proc.devRef .tc main_arg5)
    _ = W5 m ρ c (Proc.devRef .tc main_arg5) := W6_of_ne m ρ c main_arg5 (by decide)
    _ = W4 m ρ c (Proc.devRef .tc main_arg5) := by unwritten
    _ = W3 m ρ c (Proc.devRef .tc main_arg5) := W4_of_ne m ρ c main_arg5 (by decide)
    _ = _ := b2_3 m ρ c

/-- The messages added up at their targets, plus the bias, and the relu: the hidden activations. -/
theorem hid9 : W9 m ρ c (Proc.devRef .tc main_v47) = val_main_v48 (F := Ideal) (aX m c) (aE m c) (aW1 m c) (aB1 m c) :=
  hid9F m ρ c _ _ _ _ (msg6 m ρ c) (dst6 m ρ c) (b1_6 m ρ c)

/-! ### Layer 2 -/

theorem w2T9 : W9 m ρ c (Proc.devRef .tc main_v48) = val_main_v49 (F := Ideal) (aW2 m c) :=
  w2T9F m ρ c _ (w2_6 m ρ c)

/-- Region 2 leaves the second linear map of the hidden activations. -/
theorem lin10 : W10 m ρ c (Proc.devRef .tc main_v49) = val_main_v50 (F := Ideal) (aX m c) (aE m c) (aW1 m c) (aB1 m c) (aW2 m c) := by
  have h := W10_arr m ρ c 2
  rw [Linear2.final (V9 m ρ) c] at h
  refine h.trans ?_
  show Linear2.product (W9 m ρ c (Proc.devRef .tc main_v47)) (W9 m ρ c (Proc.devRef .tc main_v48)) = _
  rw [hid9, w2T9]
  exact Bridge.product2 _ _ _ _ _

theorem src10 : W10 m ρ c (Proc.devRef .tc main_v5) = val_main_v3 (F := Ideal) (aE m c) :=
  calc W10 m ρ c (Proc.devRef .tc main_v5)
    _ = W9 m ρ c (Proc.devRef .tc main_v5) := W10_of_ne m ρ c main_v5 (by decide)
    _ = W6 m ρ c (Proc.devRef .tc main_v5) := keep9 m ρ c main_v5 (by unwritten) (by unwritten) (by unwritten)
    _ = _ := src6 m ρ c

/-- Its rows gathered at the source indices. -/
theorem gath11 : W11 m ρ c (Proc.devRef .tc main_v56) = val_main_v80 (F := Ideal) (aX m c) (aE m c) (aW1 m c) (aB1 m c) (aW2 m c) :=
  gath11F m ρ c _ _ _ _ _ (lin10 m ρ c) (src10 m ρ c)

theorem coeff11 : W11 m ρ c (Proc.devRef .tc main_v30) = Bridge.coeffCol (aE m c) :=
  calc W11 m ρ c (Proc.devRef .tc main_v30)
    _ = W10 m ρ c (Proc.devRef .tc main_v30) := by unwritten
    _ = W9 m ρ c (Proc.devRef .tc main_v30) := W10_of_ne m ρ c main_v30 (by decide)
    _ = W6 m ρ c (Proc.devRef .tc main_v30) := keep9 m ρ c main_v30 (by unwritten) (by unwritten) (by unwritten)
    _ = _ := coeff6 m ρ c

/-- Region 3 leaves them scaled by the same coefficients: the second layer's messages. -/
theorem msg12 : W12 m ρ c (Proc.devRef .tc main_v57) = val_main_v83 (F := Ideal) (aX m c) (aE m c) (aW1 m c) (aB1 m c) (aW2 m c) := by
  have h := W12_arr m ρ c 2
  rw [Messages2.final (V11 m ρ) c] at h
  refine h.trans ?_
  show Messages2.scaled (W11 m ρ c (Proc.devRef .tc main_v56)) (W11 m ρ c (Proc.devRef .tc main_v30)) = _
  rw [gath11, coeff11]
  exact Bridge.scaled2 _ _ _ _ _

theorem dst12 : W12 m ρ c (Proc.devRef .tc main_v6) = val_main_v6 (F := Ideal) (aE m c) :=
  calc W12 m ρ c (Proc.devRef .tc main_v6)
    _ = W11 m ρ c (Proc.devRef .tc main_v6) := W12_of_ne m ρ c main_v6 (by decide)
    _ = W10 m ρ c (Proc.devRef .tc main_v6) := by unwritten
    _ = W9 m ρ c (Proc.devRef .tc main_v6) := W10_of_ne m ρ c main_v6 (by decide)
    _ = W6 m ρ c (Proc.devRef .tc main_v6) := keep9 m ρ c main_v6 (by unwritten) (by unwritten) (by unwritten)
    _ = _ := dst6 m ρ c

theorem b2_12 : W12 m ρ c (Proc.devRef .tc main_arg5) = aB2 m c :=
  calc W12 m ρ c (Proc.devRef .tc main_arg5)
    _ = W11 m ρ c (Proc.devRef .tc main_arg5) := W12_of_ne m ρ c main_arg5 (by decide)
    _ = W10 m ρ c (Proc.devRef .tc main_arg5) := by unwritten
    _ = W9 m ρ c (Proc.devRef .tc main_arg5) := W10_of_ne m ρ c main_arg5 (by decide)
    _ = W6 m ρ c (Proc.devRef .tc main_arg5) := keep9 m ρ c main_arg5 (by unwritten) (by unwritten) (by unwritten)
    _ = _ := b2_6 m ρ c

/-- The kernel's result is the reference's last stage, as a function of the arguments. -/
theorem result : W13 m ρ c (Proc.devRef .tc main_v63)
    = val_main_v89 (F := Ideal) (aX m c) (aE m c) (aW1 m c) (aB1 m c) (aW2 m c) (aB2 m c) :=
  resultF m ρ c _ _ _ _ _ _ (msg12 m ρ c) (dst12 m ρ c) (b2_12 m ρ c)

end Cert.KernelIdeal.Stages

end
-- ==== Proof.lean ====
/-
  A two-layer graph convolution, kernel against reference, equal over the extended reals.
  Both programs compute, for node features x, an edge list with self loops appended, and per layer a weight matrix W
  and a bias b:  out = scatter_add over targets of (x Wᵀ)[src] · coeff, plus b, with coeff = dinv[src] · dinv[tgt] and
  dinv the inverse square root of the in-degree (0 where the degree is 0); a relu sits between the layers. The kernel
  runs the two matrix products and the two row scalings as tiled regions (bf16 operands into an f32 accumulator, which
  at the ideal instance is the plain sum of products) and leaves the gathers, the scatter-adds and the degree
  computation to the same host operations the reference uses. So the two results are one function of the arguments:
  region by region the kernel's arrays are the reference's intermediate values (Stages, over the regions' closed
  forms and Bridge), and no law of arithmetic beyond reading both sides at an entry is used; finiteness of the
  inputs is never opened. The ideal pass rewrote nothing, so the kernel's idealization is its own text read at the
  ideal instance.
-/
import proofs.«142977_j9491877724922_1_alg».proof.Defs
import proofs.«142977_j9491877724922_1_alg».proof.Proof.Gen.Kernel
import proofs.«142977_j9491877724922_1_alg».proof.Proof.Gen.Kernel.Skeleton
import proofs.«142977_j9491877724922_1_alg».proof.Proof.Gen.Kernel.Launch
import proofs.«142977_j9491877724922_1_alg».proof.Proof.Gen.Kernel.Points
import proofs.«142977_j9491877724922_1_alg».proof.Proof.Gen.Kernel.Frame
import proofs.«142977_j9491877724922_1_alg».proof.Proof.Gen.KernelIdeal
import proofs.«142977_j9491877724922_1_alg».proof.Proof.Gen.KernelIdeal.Skeleton
import proofs.«142977_j9491877724922_1_alg».proof.Proof.Gen.KernelIdeal.Launch
import proofs.«142977_j9491877724922_1_alg».proof.Proof.Gen.KernelIdeal.Points
import proofs.«142977_j9491877724922_1_alg».proof.Proof.Gen.KernelIdeal.Frame
import proofs.«142977_j9491877724922_1_alg».proof.Proof.Gen.ReferenceIdeal
import proofs.«142977_j9491877724922_1_alg».proof.Proof.Gen.Pre_finite_inputs
import proofs.«142977_j9491877724922_1_alg».proof.Proof.RefRun
import proofs.«142977_j9491877724922_1_alg».proof.Proof.RefRead
import proofs.«142977_j9491877724922_1_alg».proof.Proof.KernelRun
import proofs.«142977_j9491877724922_1_alg».proof.Proof.Stages
import Idealize.ShloMosaic.Adequacy
import Idealize.ShloMosaic.Init

noncomputable section

namespace Cert.Proof

open Idealize.ShloMosaic Idealize.ShloMosaic.TcCoe Idealize.SL.Sem

/-- The kernel's program at the word level runs and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference has no region: its run, with the result dropped. -/
theorem frame_reference : Cert.frame_ReferenceIdeal :=
  fun m ρ _ => (θ_run Cert.ReferenceIdeal.defs _ _).mono (fun _ h c => (h c).2) (Cert.ReferenceIdeal.ValueP.run (F := Ideal) m ρ)

/-- Both runs end with the result at one function of the arguments: the reference's last stage. -/
theorem algebraic : Cert.algebraic_KernelIdeal_ReferenceIdeal := by
  intro m ρ m' ρ' _ hagree
  refine ⟨fun c => Cert.ReferenceIdeal.ReadP.val_main_v89 (F := Ideal) (Cert.KernelIdeal.Stages.aX m c) (Cert.KernelIdeal.Stages.aE m c)
    (Cert.KernelIdeal.Stages.aW1 m c) (Cert.KernelIdeal.Stages.aB1 m c) (Cert.KernelIdeal.Stages.aW2 m c) (Cert.KernelIdeal.Stages.aB2 m c), ?_, ?_⟩
  · exact (θ_run Cert.KernelIdeal.defs _ _).mono (fun _ h c => ⟨(h c).1.trans (Cert.KernelIdeal.Stages.result m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v89_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
